-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x4096 : Shape := ⟨3, ![16, 512, 4096]⟩
abbrev S16x512x1024 : Shape := ⟨3, ![16, 512, 1024]⟩
abbrev S1024x4096 : Shape := ⟨2, ![1024, 4096]⟩
abbrev S1024 : Shape := ⟨1, ![1024]⟩
abbrev S_ : Shape := ⟨0, ![]⟩

class Facts : Prop where
  bcast_S_S16x512x4096 : S_.BroadcastsInDim S16x512x4096 (![] : Fin 0 → Fin S16x512x4096.rank)
  reducesTo_S16x512x4096_S_d0_1_2 : S16x512x4096.ReducesTo [0, 1, 2] S_
  h_S_ : 0 < S_.numel
  bcast_S_S16x512x1024 : S_.BroadcastsInDim S16x512x1024 (![] : Fin 0 → Fin S16x512x1024.rank)
  reducesTo_S16x512x1024_S_d0_1_2 : S16x512x1024.ReducesTo [0, 1, 2] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x512x4096 .f32) (main_arg1 : FVec F S16x512x1024 .f32) (main_arg2 : FVec F S1024x4096 .f32) (main_arg3 : FVec F S1024 .f32) (main_arg4 : FVec F S1024 .f32) (main_arg5 : FVec F S1024 .f32) : IVec S_ 1 :=
  let main_v0 : FVec F S16x512x4096 .f32 := Host.absf main_arg0
  let main_cst : FVec F S_ .f32 := constant S_ .f32 0x7F800000#32
  let main_v1 : FVec F S16x512x4096 .f32 := broadcastInDim S16x512x4096 ![] bcast_S_S16x512x4096 main_cst
  let main_v2 : IVec S16x512x4096 1 := cmpf .olt main_v0 main_v1
  let main_c : IVec S_ 1 := constantI S_ 1 1#1
  let main_v3 : IVec S_ 1 := (fun x v => Host.reduce IntOp.andi x v reducesTo_S16x512x4096_S_d0_1_2 h_S_) main_v2 main_c
  let main_v4 : FVec F S16x512x1024 .f32 := Host.absf main_arg1
  let main_cst_0 : FVec F S_ .f32 := constant S_ .f32 0x7F800000#32
  let main_v5 : FVec F S16x512x1024 .f32 := broadcastInDim S16x512x1024 ![] bcast_S_S16x512x1024 main_cst_0
  let main_v6 : IVec S16x512x1024 1 := cmpf .olt main_v4 main_v5
  let main_c_1 : IVec S_ 1 := constantI S_ 1 1#1
  let main_v7 : IVec S_ 1 := (fun x v => Host.reduce IntOp.andi x v reducesTo_S16x512x1024_S_d0_1_2 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16x512x4096 : Shape := ⟨3, ![16, 512, 4096]⟩
abbrev S16x512x1024 : Shape := ⟨3, ![16, 512, 1024]⟩
abbrev S1024x4096 : Shape := ⟨2, ![1024, 4096]⟩
abbrev S1024 : Shape := ⟨1, ![1024]⟩
abbrev S_ : Shape := ⟨0, ![]⟩
abbrev S1024x1 : Shape := ⟨2, ![1024, 1]⟩
abbrev S4096x1024 : Shape := ⟨2, ![4096, 1024]⟩
abbrev S8192x4096 : Shape := ⟨2, ![8192, 4096]⟩
abbrev S8192x1024 : Shape := ⟨2, ![8192, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 24
  | .vmem => 12
  | .smem => 0
  | _ => 0

abbrev bufTy : (tb : Table) → Fin (tcTables nBuf tb) → BufTy
  | .hbm, ⟨0, _⟩ => ⟨S16x512x4096, .f32⟩
  | .hbm, ⟨1, _⟩ => ⟨S16x512x1024, .f32⟩
  | .hbm, ⟨2, _⟩ => ⟨S1024x4096, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x4096, .f32⟩
  | .hbm, ⟨14, _⟩ => ⟨S1024x4096, .f32⟩
  | .hbm, ⟨15, _⟩ => ⟨S1024x4096, .f32⟩
  | .hbm, ⟨16, _⟩ => ⟨S4096x1024, .f32⟩
  | .hbm, ⟨17, _⟩ => ⟨S8192x4096, .f32⟩
  | .hbm, ⟨18, _⟩ => ⟨S8192x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S16x512x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  transposes_S1024x4096_S4096x1024_1_0 : S1024x4096.Transposes [1, 0] S4096x1024
  shapeCasts_S16x512x4096_S8192x4096 : S16x512x4096.ShapeCasts S8192x4096
  shapeCasts_S16x512x1024_S8192x1024 : S16x512x1024.ShapeCasts S8192x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S8192x1024_S16x512x1024 : S8192x1024.ShapeCasts S16x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v9) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x512x4096 : Shape := ⟨3, ![16, 512, 4096]⟩
abbrev S16x512x1024 : Shape := ⟨3, ![16, 512, 1024]⟩
abbrev S1024x4096 : Shape := ⟨2, ![1024, 4096]⟩
abbrev S1024 : Shape := ⟨1, ![1024]⟩
abbrev S_ : Shape := ⟨0, ![]⟩
abbrev S1024x1 : Shape := ⟨2, ![1024, 1]⟩
abbrev S1x1x1024 : Shape := ⟨3, ![1, 1, 1024]⟩
abbrev S16x512 : Shape := ⟨2, ![16, 512]⟩
abbrev S16x512x1 : Shape := ⟨3, ![16, 512, 1]⟩

abbrev nBuf : Space → Nat
  | .hbm => 50
  | .vmem => 0
  | .smem => 0
  | _ => 0

abbrev bufTy : (tb : Table) → Fin (tcTables nBuf tb) → BufTy
  | .hbm, ⟨0, _⟩ => ⟨S16x512x4096, .f32⟩
  | .hbm, ⟨1, _⟩ => ⟨S16x512x1024, .f32⟩
  | .hbm, ⟨2, _⟩ => ⟨S1024x4096, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x4096, .f32⟩
  | .hbm, ⟨14, _⟩ => ⟨S1024x4096, .f32⟩
  | .hbm, ⟨15, _⟩ => ⟨S1024x4096, .f32⟩
  | .hbm, ⟨16, _⟩ => ⟨S16x512x1024, .f32⟩
  | .hbm, ⟨17, _⟩ => ⟨S1x1x1024, .f32⟩
  | .hbm, ⟨18, _⟩ => ⟨S16x512x1024, .f32⟩
  | .hbm, ⟨19, _⟩ => ⟨S16x512x1024, .f32⟩
  | .hbm, ⟨20, _⟩ => ⟨S16x512x1024, .f32⟩
  | .hbm, ⟨21, _⟩ => ⟨S_, .f32⟩
  | .hbm, ⟨22, _⟩ => ⟨S16x512, .f32⟩
  | .hbm, ⟨23, _⟩ => ⟨S16x512x1, .f32⟩
  | .hbm, ⟨24, _⟩ => ⟨S_, .f32⟩
  | .hbm, ⟨25, _⟩ => ⟨S16x512x1, .f32⟩
  | .hbm, ⟨26, _⟩ => ⟨S16x512x1, .f32⟩
  | .hbm, ⟨27, _⟩ => ⟨S16x512x1024, .f32⟩
  | .hbm, ⟨28, _⟩ => ⟨S16x512x1024, .f32⟩
  | .hbm, ⟨29, _⟩ => ⟨S16x512x1024, .f32⟩
  | .hbm, ⟨30, _⟩ => ⟨S_, .f32⟩
  | .hbm, ⟨31, _⟩ => ⟨S16x512, .f32⟩
  | .hbm, ⟨32, _⟩ => ⟨S16x512x1, .f32⟩
  | .hbm, ⟨33, _⟩ => ⟨S_, .f32⟩
  | .hbm, ⟨34, _⟩ => ⟨S16x512x1, .f32⟩
  | .hbm, ⟨35, _⟩ => ⟨S16x512x1, .f32⟩
  | .hbm, ⟨36, _⟩ => ⟨S16x512x1024, .f32⟩
  | .hbm, ⟨37, _⟩ => ⟨S16x512x1024, .f32⟩
  | .hbm, ⟨38, _⟩ => ⟨S1x1x1024, .f32⟩
  | .hbm, ⟨39, _⟩ => ⟨S16x512x1024, .f32⟩
  | .hbm, ⟨40, _⟩ => ⟨S16x512x1024, .f32⟩
  | .hbm, ⟨41, _⟩ => ⟨S_, .f32⟩
  | .hbm, ⟨42, _⟩ => ⟨S16x512x1, .f32⟩
  | .hbm, ⟨43, _⟩ => ⟨S16x512x1, .f32⟩
  | .hbm, ⟨44, _⟩ => ⟨S16x512x1, .f32⟩
  | .hbm, ⟨45, _⟩ => ⟨S16x512x1024, .f32⟩
  | .hbm, ⟨46, _⟩ => ⟨S16x512x1024, .f32⟩
  | .hbm, ⟨47, _⟩ => ⟨S1x1x1024, .f32⟩
  | .hbm, ⟨48, _⟩ => ⟨S16x512x1024, .f32⟩
  | .hbm, ⟨49, _⟩ => ⟨S16x512x1024, .f32⟩
  | _, _ => ⟨S16x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bcast_S1024_S1x1x1024_2 : S1024.BroadcastsInDim S1x1x1024 (![2] : Fin 1 → Fin S1x1x1024.rank)
  bcast_S1x1x1024_S16x512x1024_0_1_2 : S1x1x1024.BroadcastsInDim S16x512x1024 (![0, 1, 2] : Fin 3 → Fin S16x512x1024.rank)
  reducesTo_S16x512x1024_S16x512_d2 : S16x512x1024.ReducesTo [2] S16x512
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S16x512x1_S16x512x1024_0_1_2 : S16x512x1.BroadcastsInDim S16x512x1024 (![0, 1, 2] : Fin 3 → Fin S16x512x1024.rank)
  dot_S16x512x4096_S1024x4096_S16x512x1024_2_1_01_0_n_n_wf : DotDims.WF S16x512x4096 S1024x4096 S16x512x1024 [2] [1] [0, 1] [0] [] []

variable [Facts₀]

def dot_S16x512x4096_S1024x4096_S16x512x1024_2_1_01_0_n_n : DotDims S16x512x4096 S1024x4096 S16x512x1024 where
  lhsContracting := [2]
  rhsContracting := [1]
  lhsNonContracting := [0, 1]
  rhsNonContracting := [0]
  lhsBatch := []
  rhsBatch := []
  wf := dot_S16x512x4096_S1024x4096_S16x512x1024_2_1_01_0_n_n_wf

class Facts : Prop extends Facts₀ where

variable [Facts]
-- ==== Proof.Pieces.lean ====
import proofs.«105503_j90692529422554_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-!
# What one run of the body leaves behind, as values

The body keeps a running total `acc` (a 512 × 1024 block) across the four points of a row block.
At the first of the four points it stores the zero block, reads it back, and stores `0 + h · wᵀ`;
at the two middle points it stores `acc + h · wᵀ` over the total the point before left;
at the last point it does the same and then, from that fresh total, the bias, the residual, the scale
and the shift, stores the normalised block into the output. Each lemma below says which of the body's
pure terms a buffer ends at, in terms of the input blocks `x0 … x5` and the previous total `xs0`.
-/

/-- A whole-buffer rectangle starts at the origin. -/
theorem hz : (![0, 0] : Fin 2 → Nat) = fun _ => 0 := funext fun a => by fin_cases a <;> rfl

/-- First point of a row block: the total becomes the product block added to the zero block just stored
    (the zero block is read back from the buffer it was stored into). -/
theorem total_first (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x1024 .f32) (x1 : Vec F S1024x1024 .f32) (x2 : Vec F S1x1024 .f32) (x3 : Vec F S512x1024 .f32) (x4 : Vec F S1x1024 .f32) (x5 : Vec F S1x1024 .f32) :
    sout0_A_0 c i arg2 harg2 arg3 harg3 arg4 harg4 arg5 harg5 arg6 harg6 arg7 harg7 arg8 harg8 arg9 harg9 hc0 hc1 x0 x1 x2 x3 x4 x5 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x1024) hz, View.readCov_unit_zero (S := S512x1024) _ hz]
  simp only [View.readAt_eq_ld, harg2.read_unread, harg3.read_unread,
    View.ld_unit_zero (S := S512x1024) hz, View.ld_unit_zero (S := S1024x1024) hz]

/-- A middle point: the total becomes the previous total plus the product block. -/
theorem total_next (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x1024 .f32) (x1 : Vec F S1024x1024 .f32) (x2 : Vec F S1x1024 .f32) (x3 : Vec F S512x1024 .f32) (x4 : Vec F S1x1024 .f32) (x5 : Vec F S1x1024 .f32) (xs0 : Vec F S512x1024 .f32) :
    sout0_B_0 c i arg2 harg2 arg3 harg3 arg4 harg4 arg5 harg5 arg6 harg6 arg7 harg7 arg8 harg8 arg9 harg9 hc0 hc1 x0 x1 x2 x3 x4 x5 xs0 = k0_pay2 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg9.read_unread,
    View.ld_unit_zero (S := S512x1024) hz, View.ld_unit_zero (S := S1024x1024) hz]

/-- The last point: the total again becomes the previous total plus the product block, -/
theorem total_last (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x1024 .f32) (x1 : Vec F S1024x1024 .f32) (x2 : Vec F S1x1024 .f32) (x3 : Vec F S512x1024 .f32) (x4 : Vec F S1x1024 .f32) (x5 : Vec F S1x1024 .f32) (xs0 : Vec F S512x1024 .f32) :
    sout0_C_0 c i arg2 harg2 arg3 harg3 arg4 harg4 arg5 harg5 arg6 harg6 arg7 harg7 arg8 harg8 arg9 harg9 hc0 hc1 x0 x1 x2 x3 x4 x5 xs0 = k0_pay2 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg9.read_unread,
    View.ld_unit_zero (S := S512x1024) hz, View.ld_unit_zero (S := S1024x1024) hz]

/-- and the output block is the normalisation of that fresh total (read back from the buffer it was just stored
    into) with the bias, the residual, the scale and the shift. -/
theorem output_last (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x1024 .f32) (x1 : Vec F S1024x1024 .f32) (x2 : Vec F S1x1024 .f32) (x3 : Vec F S512x1024 .f32) (x4 : Vec F S1x1024 .f32) (x5 : Vec F S1x1024 .f32) (xs0 : Vec F S512x1024 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 x0 x1 xs0) x2 x3 x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readCov_unit_zero (S := S512x1024) _ hz, View.readAt_eq_ld, harg2.read_unread, harg3.read_unread,
    harg4.read_unread, harg5.read_unread, harg6.read_unread, harg7.read_unread, harg9.read_unread,
    View.ld_unit_zero (S := S512x1024) hz, View.ld_unit_zero (S := S1024x1024) hz, View.ld_unit_zero (S := S1x1024) hz]

end Cert.KernelIdeal.Pieces

end
-- ==== Proof.RowNorm.lean ====
import Idealize.ShloMosaic.PureOps.Ideal
import Idealize.ShloMosaic.PureOps.Ideal.Laws
import Mathlib.Algebra.BigOperators.Fin
import Mathlib.Logic.Equiv.Fin.Basic

/-!
# One row of the layer, as plain mathematics on the extended reals

The layer computes, for every row `x : Fin 1024 → EReal` of activations,

  `y o = γ o · (x o − μ) · rsqrt (σ² + ε) + β o`,  `μ = (∑ x) / 1024`,  `σ² = (∑ (x − μ)²) / 1024`,

and each activation is a dot product over 4096 inputs. The kernel takes that dot product in four consecutive
blocks of 1024, adding each block's sum to a running total that starts at zero; the reference takes it in one
sum. Addition of extended reals is commutative and associative with `0` neutral, so the two agree — for every
extended real, the infinities included: no finiteness is used.
-/

noncomputable section

open Idealize.ShloMosaic
open scoped BigOperators

namespace Cert.RowNorm

/-- The mean of a row of 1024 values: their sum divided by the value of the binary32 word of `1024`. -/
def mean (x : Fin 1024 → EReal) : EReal :=
  Ideal.div (∑ o, x o) (Ideal.ofBits .f32 0x44800000#32)

/-- The row's squared deviations from its mean. -/
def sqDev (x : Fin 1024 → EReal) (o : Fin 1024) : EReal := (x o - mean x) * (x o - mean x)

/-- Layer normalisation of one row `x` with scale `γ` and shift `β`; `ε` is the binary32 word nearest `1e-12`,
    the same word in both programs, so its value is never opened. -/
def lnRow (γ β x : Fin 1024 → EReal) (o : Fin 1024) : EReal :=
  γ o * (x o - mean x) * Ideal.rsqrt (mean (sqDev x) + Ideal.ofBits .f32 0x2B8CBCCC#32) + β o

/-- Index `j` of block `k` among the four consecutive blocks of 1024 that make up `Fin 4096`. -/
def blkIdx (k : Fin 4) (j : Fin 1024) : Fin 4096 :=
  ⟨1024 * k.val + j.val, by have := k.isLt; have := j.isLt; omega⟩

/-- A sum over 4096 indices is the sum over the four blocks of the blocks' sums. -/
theorem sum_eq_sum_blocks {M : Type*} [AddCommMonoid M] (f : Fin 4096 → M) :
    ∑ i, f i = ∑ k : Fin 4, ∑ j : Fin 1024, f (blkIdx k j) := by
  -- `Fin 4096` is `Fin (4 * 1024)`; the pairs `(k, j)` enumerate it as `1024 k + j`
  let g : Fin (4 * 1024) → M := fun i => f i
  have e : ∀ p : Fin 4 × Fin 1024, g (finProdFinEquiv p) = f (blkIdx p.1 p.2) := fun p =>
    congrArg f (Fin.ext (by show p.2.val + 1024 * p.1.val = 1024 * p.1.val + p.2.val; omega))
  calc ∑ i, f i = ∑ i : Fin (4 * 1024), g i := rfl
    _ = ∑ p : Fin 4 × Fin 1024, g (finProdFinEquiv p) := (Equiv.sum_comp finProdFinEquiv g).symm
    _ = ∑ p : Fin 4 × Fin 1024, f (blkIdx p.1 p.2) := Finset.sum_congr rfl fun p _ => e p
    _ = ∑ k : Fin 4, ∑ j : Fin 1024, f (blkIdx k j) := Fintype.sum_prod_type _

/-- The kernel's order: start from zero, add block 0's sum, then block 1's, block 2's, block 3's. On the extended
    reals this running total is the one sum over all 4096 indices. -/
theorem blocks_in_order (f : Fin 4096 → EReal) :
    (((0 + ∑ j : Fin 1024, f (blkIdx 0 j)) + ∑ j : Fin 1024, f (blkIdx 1 j)) + ∑ j : Fin 1024, f (blkIdx 2 j))
      + ∑ j : Fin 1024, f (blkIdx 3 j) = ∑ i, f i := by
  rw [sum_eq_sum_blocks f, Fin.sum_univ_four, zero_add]

end Cert.RowNorm

end
-- ==== Proof.Payload.lean ====
import proofs.«105503_j90692529422554_1_alg».proof.Proof.Gen.KernelIdeal.Skeleton
import proofs.«105503_j90692529422554_1_alg».proof.Proof.RowNorm
import Idealize.ShloMosaic.Lib.ValueIdx
import Idealize.ShloMosaic.Lib.ValueLayout
import Idealize.ShloMosaic.Lib.Pipeline.Value
import Idealize.ShloMosaic.PureOps.Ideal.Laws

/-!
# The kernel's three stored values, read at an index

The kernel body stores three values into its blocks: a block of zeros (first reduction step), the running total
plus one block's matrix product (every step), and the layer normalisation of the finished rows (last step). Each is
read here at an index `(p, q)` at the ideal values, as plain arithmetic on the extended reals.
-/

noncomputable section

open Idealize.ShloMosaic Idealize.ShloMosaic.TcCoe Idealize.SL.Sem
open Idealize.ShloMosaic.ValueIdx
open scoped BigOperators

namespace Cert.KernelIdeal.Payload
open Cert.KernelIdeal Cert.KernelIdeal.Gen Cert.RowNorm

/-! ## The block of zeros -/

/-- The first step stores the splat of the binary32 zero word, which is the extended real `0`. -/
theorem zero_block_apply (p : Fin 512) (q : Fin 1024) : k0_pay1 (F := Ideal) (ix2 p q) = 0 := by
  unfold k0_pay1
  show shapeCast S512x1024 (broadcast S512x1024 (Scalar.ofBits (F := Ideal) .f32 0x00000000#32))
    shapeCasts_S512x1024_S512x1024 (ix2 p q) = 0
  rw [shapeCast_self]
  exact Ideal.ofBits_zero_f32

/-! ## The matrix product of one block -/

/-- Left operand, row axis: the output's row. -/
theorem lhs_mm_0 (i : S512x1024.Idx) (k : dot_S512x1024_S1024x1024_S512x1024_1_0_0_1_n_n.contr.Idx) :
    (dot_S512x1024_S1024x1024_S512x1024_1_0_0_1_n_n.lhsIdx i k 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- Left operand, column axis: the contraction coordinate. -/
theorem lhs_mm_1 (i : S512x1024.Idx) (k : dot_S512x1024_S1024x1024_S512x1024_1_0_0_1_n_n.contr.Idx) :
    (dot_S512x1024_S1024x1024_S512x1024_1_0_0_1_n_n.lhsIdx i k 1).val = (k ⟨0, by decide⟩).val :=
  dot_S512x1024_S1024x1024_S512x1024_1_0_0_1_n_n.lhsIdx_val_of_single rfl i k
/-- Right operand, row axis: the contraction coordinate. -/
theorem rhs_mm_0 (i : S512x1024.Idx) (k : dot_S512x1024_S1024x1024_S512x1024_1_0_0_1_n_n.contr.Idx) :
    (dot_S512x1024_S1024x1024_S512x1024_1_0_0_1_n_n.rhsIdx i k 0).val = (k ⟨0, by decide⟩).val :=
  dot_S512x1024_S1024x1024_S512x1024_1_0_0_1_n_n.rhsIdx_val_of_single rfl i k
/-- Right operand, column axis: the output's column. -/
theorem rhs_mm_1 (i : S512x1024.Idx) (k : dot_S512x1024_S1024x1024_S512x1024_1_0_0_1_n_n.contr.Idx) :
    (dot_S512x1024_S1024x1024_S512x1024_1_0_0_1_n_n.rhsIdx i k 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator at `(p, q)`: the sum over the contraction coordinate `j` of the left
    operand at `(p, j)` times the right operand at `(j, q)`. -/
theorem matmul_zero_apply (a : FVec Ideal S512x1024 .bf16) (b : FVec Ideal S1024x1024 .bf16) (p : Fin 512) (q : Fin 1024) :
    matmul dot_S512x1024_S1024x1024_S512x1024_1_0_0_1_n_n none a b (constant (F := Ideal) S512x1024 .f32 0x00000000#32) (ix2 p q)
      = ∑ j : Fin 1024, a (ix2 p j) * b (ix2 j q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun c => Fin.ext (by
    match c with
    | ⟨0, _⟩ => exact lhs_mm_0 _ _
    | ⟨1, _⟩ => exact (lhs_mm_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun c => Fin.ext (by
    match c with
    | ⟨0, _⟩ => exact (rhs_mm_0 _ _).trans hk
    | ⟨1, _⟩ => exact rhs_mm_1 _ _)
  rw [el, er]

/-- Every step adds one block's product to the running total: the operands' narrowing to bf16 is the identity at
    the ideal values, and the casts to the same shape are identities. -/
theorem accumulate_apply (v3 : Vec Ideal S512x1024 .f32) (v6 : Vec Ideal S1024x1024 .f32) (v9 : Vec Ideal S512x1024 .f32)
    (p : Fin 512) (q : Fin 1024) :
    k0_pay2 (F := Ideal) v3 v6 v9 (ix2 p q) = v9 (ix2 p q) + ∑ j : Fin 1024, v3 (ix2 p j) * v6 (ix2 j q) := by
  unfold k0_pay2
  show shapeCast S512x1024 (addf v9 (matmul dot_S512x1024_S1024x1024_S512x1024_1_0_0_1_n_n none
      (truncf .bf16 (shapeCast S512x1024 v3 shapeCasts_S512x1024_S512x1024) bitsLt_bf16_f32)
      (truncf .bf16 (shapeCast S1024x1024 v6 shapeCasts_S1024x1024_S1024x1024) bitsLt_bf16_f32)
      (constant (F := Ideal) S512x1024 .f32 0x00000000#32))) shapeCasts_S512x1024_S512x1024 (ix2 p q) = _
  rw [shapeCast_self, shapeCast_self, shapeCast_self, addf_apply, matmul_zero_apply]
  rfl

/-! ## Layout operations of the row statistics, read at an index -/

/-- A vector `[a]` cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row statistics -/

/-- The sum along the lanes of a `[512, 1024]` value, at row `p`: the sum of that row's 1024 entries. -/
theorem rowSum_apply (x : FVec Ideal S512x1024 .f32) (p : Fin 512) :
    multiReduction (F := Ideal) .add [1] S512 x 0x00000000#32 reduces_S512x1024_S512 (.inl rfl) rfl (ix1 p)
      = ∑ k : Fin 1024, x (ix2 p k) := by
  refine (Ideal.multiReduction_add_single x _ reduces_S512x1024_S512 _ _ (ix1 p)).trans ?_
  show ∑ k : Fin 1024, x (reduces_S512x1024_S512.lift (ix1 p) k) = _
  refine Finset.sum_congr rfl fun k _ => congrArg x ?_
  funext c
  match c with
  | ⟨0, _⟩ => rfl
  | ⟨1, _⟩ => rfl

/-- The column of row means as the kernel computes it: the lane sum, kept as a column, divided by the splat of the
    binary32 word of `1024`. -/
def meanCol (x : FVec Ideal S512x1024 .f32) : FVec Ideal S512x1 .f32 :=
  divf (shapeCast S512x1 (multiReduction (F := Ideal) .add [1] S512 x 0x00000000#32 reduces_S512x1024_S512 (.inl rfl) rfl)
      shapeCasts_S512_S512x1)
    (broadcast S512x1 (Scalar.ofBits (F := Ideal) .f32 0x44800000#32))

/-- Its entry of row `p` is the mean of that row. -/
theorem meanCol_apply (x : FVec Ideal S512x1024 .f32) (p : Fin 512) (u : Fin 1) :
    meanCol x (ix2 p u) = mean (fun o => x (ix2 p o)) := by
  unfold meanCol
  rw [divf_apply, shapeCast_a_a1_apply, rowSum_apply]
  rfl

/-- A value with each row's mean subtracted. -/
def centred (x : FVec Ideal S512x1024 .f32) : FVec Ideal S512x1024 .f32 :=
  subf x (broadcastTo S512x1024 (meanCol x) broadcasts_S512x1_S512x1024)

theorem centred_apply (x : FVec Ideal S512x1024 .f32) (p : Fin 512) (q : Fin 1024) :
    centred x (ix2 p q) = x (ix2 p q) - mean (fun o => x (ix2 p o)) := by
  unfold centred
  rw [subf_apply, broadcastTo_a1_ab_apply, meanCol_apply]

/-- The column of row variances: the mean of the squared centred value. -/
theorem variance_apply (x : FVec Ideal S512x1024 .f32) (p : Fin 512) (u : Fin 1) :
    meanCol (mulf (centred x) (centred x)) (ix2 p u) = mean (sqDev (fun o => x (ix2 p o))) := by
  rw [meanCol_apply]
  refine congrArg mean (funext fun o => ?_)
  rw [mulf_apply, centred_apply]
  rfl

/-! ## The normalised rows -/

/-- The activation the last step normalises: the running total plus the bias row plus the residual block. -/
def act (v18 : Vec Ideal S512x1024 .f32) (v19 : Vec Ideal S1x1024 .f32) (v23 : Vec Ideal S512x1024 .f32) :
    FVec Ideal S512x1024 .f32 :=
  addf (addf v18 (broadcastTo S512x1024 (shapeCast S1x1024 v19 shapeCasts_S1x1024_S1x1024) broadcasts_S1x1024_S512x1024))
    (shapeCast S512x1024 v23 shapeCasts_S512x1024_S512x1024)

theorem act_apply (v18 : Vec Ideal S512x1024 .f32) (v19 : Vec Ideal S1x1024 .f32) (v23 : Vec Ideal S512x1024 .f32)
    (p : Fin 512) (o : Fin 1024) :
    act v18 v19 v23 (ix2 p o) = (v18 (ix2 p o) + v19 (ix2 0 o)) + v23 (ix2 p o) := by
  unfold act
  rw [shapeCast_self, shapeCast_self, addf_apply, addf_apply, broadcastTo_1b_ab_apply]

/-- Scale `γ`, shift `β` (rows `[1, 1024]`) applied to the centred value times the reciprocal square root of the
    variance plus the splat of the binary32 word nearest `1e-12`. -/
def norm (γ β : Vec Ideal S1x1024 .f32) (x : FVec Ideal S512x1024 .f32) : FVec Ideal S512x1024 .f32 :=
  addf
    (mulf
      (mulf (broadcastTo S512x1024 (shapeCast S1x1024 γ shapeCasts_S1x1024_S1x1024) broadcasts_S1x1024_S512x1024) (centred x))
      (broadcastTo S512x1024
        (rsqrt (addf (meanCol (mulf (centred x) (centred x)))
          (broadcast S512x1 (Scalar.ofBits (F := Ideal) .f32 0x2B8CBCCC#32))))
        broadcasts_S512x1_S512x1024))
    (broadcastTo S512x1024 (shapeCast S1x1024 β shapeCasts_S1x1024_S1x1024) broadcasts_S1x1024_S512x1024)

theorem norm_apply (γ β : Vec Ideal S1x1024 .f32) (x : FVec Ideal S512x1024 .f32) (p : Fin 512) (q : Fin 1024) :
    norm γ β x (ix2 p q)
      = lnRow (fun o => γ (ix2 0 o)) (fun o => β (ix2 0 o)) (fun o => x (ix2 p o)) q := by
  unfold norm
  rw [shapeCast_self, shapeCast_self, addf_apply, mulf_apply, mulf_apply, broadcastTo_1b_ab_apply,
    broadcastTo_1b_ab_apply, broadcastTo_a1_ab_apply, centred_apply]
  show γ (ix2 0 q) * (x (ix2 p q) - mean fun o => x (ix2 p o))
      * Ideal.rsqrt (meanCol (mulf (centred x) (centred x)) (ix2 p (0 : Fin 1)) + Ideal.ofBits .f32 0x2B8CBCCC#32)
      + β (ix2 0 q) = _
  rw [variance_apply]
  rfl

/-- The stored value of the last step is `norm` of `act`: the same operations in the same order. -/
theorem pay3_eq (v18 : Vec Ideal S512x1024 .f32) (v19 : Vec Ideal S1x1024 .f32) (v23 : Vec Ideal S512x1024 .f32)
    (v37 v48 : Vec Ideal S1x1024 .f32) :
    k0_pay3 (F := Ideal) v18 v19 v23 v37 v48 = norm v37 v48 (act v18 v19 v23) := rfl

/-- The last step stores, at `(p, q)`, the layer normalisation of row `p` of the activation, with the scale and
    shift rows, at lane `q`. -/
theorem normalise_apply (v18 : Vec Ideal S512x1024 .f32) (v19 : Vec Ideal S1x1024 .f32) (v23 : Vec Ideal S512x1024 .f32)
    (v37 v48 : Vec Ideal S1x1024 .f32) (p : Fin 512) (q : Fin 1024) :
    k0_pay3 (F := Ideal) v18 v19 v23 v37 v48 (ix2 p q)
      = lnRow (fun o => v37 (ix2 0 o)) (fun o => v48 (ix2 0 o))
          (fun o => (v18 (ix2 p o) + v19 (ix2 0 o)) + v23 (ix2 p o)) q := by
  rw [pay3_eq, norm_apply]
  exact congrArg (fun x => lnRow (fun o => v37 (ix2 0 o)) (fun o => v48 (ix2 0 o)) x q)
    (funext fun o => act_apply v18 v19 v23 p o)

end Cert.KernelIdeal.Payload

end
-- ==== Proof.Blocks.lean ====
import proofs.«105503_j90692529422554_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem
open Idealize.ShloMosaic.ValueIdx
open scoped BigOperators

/-! ## the windows' blocks -/
namespace Cert.KernelIdeal.Blocks
open Cert.KernelIdeal Cert.KernelIdeal.Gen

variable {F : FTy → Type} [FloatOps F]
variable (m : (ℓ : Loc nD τ sig) → Buf (Elt F) ℓ)

abbrev hBlk (c : Dev nD) (t : Fin cfg0.N) : Vec F S512x1024 .f32 := iblk m c 0 t
abbrev wBlk (c : Dev nD) (t : Fin cfg0.N) : Vec F S1024x1024 .f32 := iblk m c 1 t
abbrev bBlk (c : Dev nD) (t : Fin cfg0.N) : Vec F S1x1024 .f32 := iblk m c 2 t
abbrev rBlk (c : Dev nD) (t : Fin cfg0.N) : Vec F S512x1024 .f32 := iblk m c 3 t
abbrev gBlk (c : Dev nD) (t : Fin cfg0.N) : Vec F S1x1024 .f32 := iblk m c 4 t
abbrev eBlk (c : Dev nD) (t : Fin cfg0.N) : Vec F S1x1024 .f32 := iblk m c 5 t

/-- the binarised weight as the host operations before the region compute it -/
def binW (W : Vec F S1024x4096 .f32) : Vec F S1024x4096 .f32 :=
  mulf (Host.sign W) (broadcastInDim S1024x4096 ![0, 1] bcast_S1024x1_S1024x4096_0_1
    (Host.divf (broadcastInDim S1024x1 ![0] bcast_S1024_S1024x1_0
        (Host.reduceAdd (Host.absf W) (constant S_ .f32 0x00000000#32) reducesTo_S1024x4096_S1024_d1 h_S_))
      (broadcastInDim S1024x1 ![] bcast_S_S1024x1 (constant S_ .f32 0x45800000#32))))

/-! ### the grid and the index maps

The grid is 16 x 4, row-major: point `t` has coordinates `(t / 4, t % 4)`. Each window's index map, read at a
point, decided once over the 64 points. -/

/-- window 0 (the activations): block `(t / 4, t % 4)` -/
theorem idx0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
/-- window 1 (the transposed weight): block `(t % 4, 0)` -/
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
/-- window 2 (the bias row): the whole array -/
theorem idx2 : ∀ t : Fin cfg0.N, win0_2.index t 0 = 0 ∧ win0_2.index t 1 = 0 :=
  (by decide +kernel : ∀ t : Fin grid0.N, win0_2.index t 0 = 0 ∧ win0_2.index t 1 = 0)
/-- window 3 (the residual): block `(t / 4, 0)` -/
theorem idx3 : ∀ t : Fin cfg0.N, win0_3.index t 0 = t.val / 4 ∧ win0_3.index t 1 = 0 :=
  (by decide +kernel : ∀ t : Fin grid0.N, win0_3.index t 0 = t.val / 4 ∧ win0_3.index t 1 = 0)
/-- window 4 (the scale row): the whole array -/
theorem idx4 : ∀ t : Fin cfg0.N, win0_4.index t 0 = 0 ∧ win0_4.index t 1 = 0 :=
  (by decide +kernel : ∀ t : Fin grid0.N, win0_4.index t 0 = 0 ∧ win0_4.index t 1 = 0)
/-- window 5 (the shift row): the whole array -/
theorem idx5 : ∀ t : Fin cfg0.N, win0_5.index t 0 = 0 ∧ win0_5.index t 1 = 0 :=
  (by decide +kernel : ∀ t : Fin grid0.N, win0_5.index t 0 = 0 ∧ win0_5.index t 1 = 0)

/-! ### the arrays the region finds, as terms of the arguments -/

/-- the activations `[16, 512, 4096]` with the two leading axes merged -/
theorem V_v9 (c : Dev nD) : (V m c main_v9 : S8192x4096.Idx → Elt F .f32)
    = shapeCast S8192x4096 (m ((c : Thread nD τ).loc main_arg0)) shapeCasts_S16x512x4096_S8192x4096 := by
  show StableHlo.after hostOps0 (fun b => m (c, b)) (Proc.devRef .tc main_v9) = _
  after_results
  rfl
/-- the binarised weight, transposed -/
theorem V_v8 (c : Dev nD) : (V m c main_v8 : S4096x1024.Idx → Elt F .f32)
    = transpose S4096x1024 [1, 0] (binW (m ((c : Thread nD τ).loc main_arg2))) transposes_S1024x4096_S4096x1024_1_0 := by
  show StableHlo.after hostOps0 (fun b => m (c, b)) (Proc.devRef .tc main_v8) = _
  after_results
  rfl
/-- the residual `[16, 512, 1024]` with the two leading axes merged -/
theorem V_v10 (c : Dev nD) : (V m c main_v10 : S8192x1024.Idx → Elt F .f32)
    = shapeCast S8192x1024 (m ((c : Thread nD τ).loc main_arg1)) shapeCasts_S16x512x1024_S8192x1024 := by
  show StableHlo.after hostOps0 (fun b => m (c, b)) (Proc.devRef .tc main_v10) = _
  after_results
  rfl
/-- the bias as a row -/
theorem V_v11 (c : Dev nD) : (V m c main_v11 : S1x1024.Idx → Elt F .f32)
    = shapeCast S1x1024 (m ((c : Thread nD τ).loc main_arg3)) shapeCasts_S1024_S1x1024 := by
  show StableHlo.after hostOps0 (fun b => m (c, b)) (Proc.devRef .tc main_v11) = _
  after_results
  rfl
/-- the scale as a row -/
theorem V_v12 (c : Dev nD) : (V m c main_v12 : S1x1024.Idx → Elt F .f32)
    = shapeCast S1x1024 (m ((c : Thread nD τ).loc main_arg4)) shapeCasts_S1024_S1x1024 := by
  show StableHlo.after hostOps0 (fun b => m (c, b)) (Proc.devRef .tc main_v12) = _
  after_results
  rfl
/-- the shift as a row -/
theorem V_v13 (c : Dev nD) : (V m c main_v13 : S1x1024.Idx → Elt F .f32)
    = shapeCast S1x1024 (m ((c : Thread nD τ).loc main_arg5)) shapeCasts_S1024_S1x1024 := by
  show StableHlo.after hostOps0 (fun b => m (c, b)) (Proc.devRef .tc main_v13) = _
  after_results
  rfl

/-! ### the layout operations read at an index -/

/-- merging the leading axes `[16, 512]` into `8192`: row `512 u + p` is `(u, p)` (row-major positions agree) -/
theorem merge4096_apply {α : Type} (x : S16x512x4096.Idx → α) (i : S8192x4096.Idx) (u : Fin 16) (p : Fin 512) (q : Fin 4096)
    (h0 : (i 0).val = 512 * u.val + p.val) (h1 : (i 1).val = q.val) :
    shapeCast S8192x4096 x shapeCasts_S16x512x4096_S8192x4096 i = x (ix3 u p q) :=
  shapeCast_apply x _ i _ (by
    rw [Shape.rowMajor_val_three, Shape.rowMajor_val_two]
    show (u.val * 512 + p.val) * 4096 + q.val = (i 0).val * 4096 + (i 1).val
    rw [h0, h1]; omega)
/-- the same at row length 1024 -/
theorem merge1024_apply {α : Type} (x : S16x512x1024.Idx → α) (i : S8192x1024.Idx) (u : Fin 16) (p : Fin 512) (q : Fin 1024)
    (h0 : (i 0).val = 512 * u.val + p.val) (h1 : (i 1).val = q.val) :
    shapeCast S8192x1024 x shapeCasts_S16x512x1024_S8192x1024 i = x (ix3 u p q) :=
  shapeCast_apply x _ i _ (by
    rw [Shape.rowMajor_val_three, Shape.rowMajor_val_two]
    show (u.val * 512 + p.val) * 1024 + q.val = (i 0).val * 1024 + (i 1).val
    rw [h0, h1]; omega)
/-- a vector as a one-row matrix: entry `(0, o)` is entry `o` -/
theorem row_apply {α : Type} (x : S1024.Idx → α) (i : S1x1024.Idx) (o : Fin 1024)
    (h0 : (i 0).val = 0) (h1 : (i 1).val = o.val) :
    shapeCast S1x1024 x shapeCasts_S1024_S1x1024 i = x (ix1 o) :=
  shapeCast_apply x _ i _ (by
    rw [Shape.rowMajor_val_one, Shape.rowMajor_val_two]
    show o.val = (i 0).val * 1024 + (i 1).val
    rw [h0, h1]; omega)
/-- the transposed matrix at `(k, r)` is the matrix at `(r, k)` -/
theorem transposed_apply {α : Type} (x : S1024x4096.Idx → α) (i : S4096x1024.Idx) (r : Fin 1024) (k : Fin 4096)
    (h0 : (i 0).val = k.val) (h1 : (i 1).val = r.val) :
    transpose S4096x1024 [1, 0] x transposes_S1024x4096_S4096x1024_1_0 i = x (ix2 r k) :=
  transpose_apply _ x _ i _ fun b => match b with | ⟨0, _⟩ => h0.symm | ⟨1, _⟩ => h1.symm

/-! ### the blocks -/

theorem hBlk_apply (c : Dev nD) (t : Fin cfg0.N) (p : Fin 512) (j : Fin 1024) :
    hBlk m c t (ix2 p j) = m ((c : Thread nD τ).loc main_arg0)
      (ix3 (⟨t.val / 4, by have := t.isLt; have : cfg0.N = 64 := N_0; omega⟩ : Fin 16) p
        (⟨1024 * (t.val % 4) + j.val, by have := j.isLt; omega⟩ : Fin 4096)) := by
  show iblk m c 0 t (ix2 p j) = _
  unfold iblk
  rw [View.read_apply]
  show V m c main_v9 (((cfg0.win 0).blk t).view.emb (ix2 p j)) = _
  refine (congrFun (V_v9 m c) _).trans ?_
  refine merge4096_apply _ _ _ _ _ ?_ ?_
  · show win0_0.index t 0 * 512 + 1 * p.val = 512 * (t.val / 4) + p.val
    rw [(idx0 t).1]; omega
  · show win0_0.index t 1 * 1024 + 1 * j.val = 1024 * (t.val % 4) + j.val
    rw [(idx0 t).2]; omega

theorem wBlk_apply (c : Dev nD) (t : Fin cfg0.N) (j : Fin 1024) (q : Fin 1024) :
    wBlk m c t (ix2 j q) = binW (m ((c : Thread nD τ).loc main_arg2))
      (ix2 q (⟨1024 * (t.val % 4) + j.val, by have := j.isLt; omega⟩ : Fin 4096)) := by
  show iblk m c 1 t (ix2 j q) = _
  unfold iblk
  rw [View.read_apply]
  show V m c main_v8 (((cfg0.win 1).blk t).view.emb (ix2 j q)) = _
  refine (congrFun (V_v8 m c) _).trans ?_
  refine transposed_apply _ _ _ _ ?_ ?_
  · show win0_1.index t 0 * 1024 + 1 * j.val = 1024 * (t.val % 4) + j.val
    rw [(idx1 t).1]; omega
  · show win0_1.index t 1 * 1024 + 1 * q.val = q.val
    rw [(idx1 t).2]; omega

theorem bBlk_apply (c : Dev nD) (t : Fin cfg0.N) (z : Fin 1) (o : Fin 1024) :
    bBlk m c t (ix2 z o) = m ((c : Thread nD τ).loc main_arg3) (ix1 o) := by
  show iblk m c 2 t (ix2 z o) = _
  unfold iblk
  rw [View.read_apply]
  show V m c main_v11 (((cfg0.win 2).blk t).view.emb (ix2 z o)) = _
  refine (congrFun (V_v11 m c) _).trans ?_
  refine row_apply _ _ _ ?_ ?_
  · show win0_2.index t 0 * 1 + 1 * z.val = 0
    rw [(idx2 t).1]; omega
  · show win0_2.index t 1 * 1024 + 1 * o.val = o.val
    rw [(idx2 t).2]; omega
theorem gBlk_apply (c : Dev nD) (t : Fin cfg0.N) (z : Fin 1) (o : Fin 1024) :
    gBlk m c t (ix2 z o) = m ((c : Thread nD τ).loc main_arg4) (ix1 o) := by
  show iblk m c 4 t (ix2 z o) = _
  unfold iblk
  rw [View.read_apply]
  show V m c main_v12 (((cfg0.win 4).blk t).view.emb (ix2 z o)) = _
  refine (congrFun (V_v12 m c) _).trans ?_
  refine row_apply _ _ _ ?_ ?_
  · show win0_4.index t 0 * 1 + 1 * z.val = 0
    rw [(idx4 t).1]; omega
  · show win0_4.index t 1 * 1024 + 1 * o.val = o.val
    rw [(idx4 t).2]; omega
theorem eBlk_apply (c : Dev nD) (t : Fin cfg0.N) (z : Fin 1) (o : Fin 1024) :
    eBlk m c t (ix2 z o) = m ((c : Thread nD τ).loc main_arg5) (ix1 o) := by
  show iblk m c 5 t (ix2 z o) = _
  unfold iblk
  rw [View.read_apply]
  show V m c main_v13 (((cfg0.win 5).blk t).view.emb (ix2 z o)) = _
  refine (congrFun (V_v13 m c) _).trans ?_
  refine row_apply _ _ _ ?_ ?_
  · show win0_5.index t 0 * 1 + 1 * z.val = 0
    rw [(idx5 t).1]; omega
  · show win0_5.index t 1 * 1024 + 1 * o.val = o.val
    rw [(idx5 t).2]; omega
theorem rBlk_apply (c : Dev nD) (t : Fin cfg0.N) (p : Fin 512) (o : Fin 1024) :
    rBlk m c t (ix2 p o) = m ((c : Thread nD τ).loc main_arg1)
      (ix3 (⟨t.val / 4, by have := t.isLt; have : cfg0.N = 64 := N_0; omega⟩ : Fin 16) p o) := by
  show iblk m c 3 t (ix2 p o) = _
  unfold iblk
  rw [View.read_apply]
  show V m c main_v10 (((cfg0.win 3).blk t).view.emb (ix2 p o)) = _
  refine (congrFun (V_v10 m c) _).trans ?_
  refine merge1024_apply _ _ _ _ _ ?_ ?_
  · show win0_3.index t 0 * 512 + 1 * p.val = 512 * (t.val / 4) + p.val
    rw [(idx3 t).1]; omega
  · show win0_3.index t 1 * 1024 + 1 * o.val = o.val
    rw [(idx3 t).2]; omega
end Cert.KernelIdeal.Blocks

end
-- ==== Proof.RefValue.lean ====
import proofs.«105503_j90692529422554_1_alg».proof.Proof.Gen.ReferenceIdeal.Read
import proofs.«105503_j90692529422554_1_alg».proof.Proof.RowNorm
import Idealize.ShloMosaic.Lib.ValueIdx

/-!
# The reference's stages, read at an index

The reference computes the activation `x = H · Wᵀ + b + R` (a dot product over 4096 inputs, the bias of the output
column, the residual), and then normalises every row of 1024 activations: subtract the row's mean, multiply by the
reciprocal square root of the row's mean squared deviation plus `ε`, scale by `γ` and shift by `β`. Both row sums
start from the binary32 word of zero, whose value is `0`, neutral for addition.
-/

noncomputable section

open Idealize.ShloMosaic Idealize.ShloMosaic.TcCoe Idealize.SL.Sem
open Idealize.ShloMosaic.ValueIdx
open scoped BigOperators

namespace Cert.ReferenceIdeal.RefValue
open Cert.ReferenceIdeal Cert.ReferenceIdeal.Read Cert.RowNorm

/-! ## where the broadcasts and the row sums read their operands -/

/-- The bias, broadcast along the batch and row axes, is read at the output column. -/
theorem bias_idx (i : S16x512x1024.Idx) : idx_main_v9 (idx_main_v10 i) = ix1 (i 2) :=
  funext fun a => Fin.ext (by match a with | ⟨0, _⟩ => rfl)

/-- The scale `γ`, broadcast along the batch and row axes, is read at the output column. -/
theorem scale_idx (u : Fin 16) (s : Fin 512) (o : Fin 1024) :
    idx_main_v26 (idx_main_v27 (ix3 u s o)) = ix1 o :=
  funext fun a => Fin.ext (by match a with | ⟨0, _⟩ => rfl)

/-- The shift `β`, broadcast along the batch and row axes, is read at the output column. -/
theorem shift_idx (u : Fin 16) (s : Fin 512) (o : Fin 1024) :
    idx_main_v34 (idx_main_v35 (ix3 u s o)) = ix1 o :=
  funext fun a => Fin.ext (by match a with | ⟨0, _⟩ => rfl)

/-- The mean subtracted from the output: its sum runs over the row `(u, s)`. -/
theorem mean_idx_out (u : Fin 16) (s : Fin 512) (o k : Fin 1024) :
    idx_main_v13 (idx_main_v14 (idx_main_v24 (ix3 u s o))) k = ix3 u s k :=
  funext fun a => Fin.ext (by match a with | ⟨0, _⟩ => rfl | ⟨1, _⟩ => rfl | ⟨2, _⟩ => rfl)

/-- The mean subtracted inside the squared deviations: its sum runs over the row `(u, s)`. -/
theorem mean_idx_dev (u : Fin 16) (s : Fin 512) (o k : Fin 1024) :
    idx_main_v13 (idx_main_v14 (idx_main_v17 (ix3 u s o))) k = ix3 u s k :=
  funext fun a => Fin.ext (by match a with | ⟨0, _⟩ => rfl | ⟨1, _⟩ => rfl | ⟨2, _⟩ => rfl)

/-- The sum of squared deviations runs over the row `(u, s)`. -/
theorem dev_idx (u : Fin 16) (s : Fin 512) (o k : Fin 1024) :
    idx_main_v20 (idx_main_v21 (idx_main_v32 (ix3 u s o))) k = ix3 u s k :=
  funext fun a => Fin.ext (by match a with | ⟨0, _⟩ => rfl | ⟨1, _⟩ => rfl | ⟨2, _⟩ => rfl)

/-! ## the two stages -/

/-- The activation at an index: the dot product over the 4096 inputs, plus the column's bias, plus the residual. -/
theorem activation_apply (H : (⟨S16x512x4096, .f32⟩ : BufTy).Contents (Elt Ideal)) (R : (⟨S16x512x1024, .f32⟩ : BufTy).Contents (Elt Ideal))
    (W : (⟨S1024x4096, .f32⟩ : BufTy).Contents (Elt Ideal)) (b : (⟨S1024, .f32⟩ : BufTy).Contents (Elt Ideal)) (i : S16x512x1024.Idx) :
    val_main_v12 (F := Ideal) H R W b i
      = (∑ k : Fin 4096, H (lidx_main_v8 i k) * val_main_v7 (F := Ideal) W (ridx_main_v8 i k) + b (ix1 (i 2))) + R i := by
  rw [val_main_v12_apply, val_main_v11_apply, val_main_v10_apply, val_main_v9_apply, val_main_v8_apply, bias_idx]
  rfl

/-- The result at `(u, s, o)` is the normalisation of row `(u, s)` of the activations, read at column `o`. -/
theorem result_apply (H : (⟨S16x512x4096, .f32⟩ : BufTy).Contents (Elt Ideal)) (R : (⟨S16x512x1024, .f32⟩ : BufTy).Contents (Elt Ideal))
    (W : (⟨S1024x4096, .f32⟩ : BufTy).Contents (Elt Ideal)) (b g be : (⟨S1024, .f32⟩ : BufTy).Contents (Elt Ideal))
    (u : Fin 16) (s : Fin 512) (o : Fin 1024) :
    val_main_v36 (F := Ideal) H R W b g be (ix3 u s o)
      = lnRow (fun o' => g (ix1 o')) (fun o' => be (ix1 o'))
          (fun o' => val_main_v12 (F := Ideal) H R W b (ix3 u s o')) o := by
  simp only [val_main_v36_apply, val_main_v35_apply, val_main_v34_apply, val_main_v33_apply, val_main_v32_apply,
    val_main_v31_apply, val_main_v30_apply, val_main_v29_apply, val_main_cst_5_apply, val_main_v28_apply,
    val_main_v27_apply, val_main_v26_apply, val_main_v25_apply, val_main_v24_apply, val_main_v23_apply,
    val_main_v22_apply, val_main_cst_4_apply, val_main_v21_apply, val_main_v20_apply, val_main_cst_3_apply,
    val_main_v19_apply, val_main_v18_apply, val_main_v17_apply, val_main_v16_apply, val_main_v15_apply,
    val_main_cst_2_apply, val_main_v14_apply, val_main_v13_apply, val_main_cst_1_apply,
    scale_idx, shift_idx, mean_idx_out, mean_idx_dev, dev_idx,
    Ideal.addf_def, Ideal.subf_def, Ideal.mulf_def, Ideal.hostDivf_def, Ideal.hostUnary_rsqrt_def, Ideal.ofBits_def,
    Ideal.ofBits_zero_f32, zero_add]
  rfl

end Cert.ReferenceIdeal.RefValue

end
-- ==== Proof.Result.lean ====
import proofs.«105503_j90692529422554_1_alg».proof.Proof.Pieces
import proofs.«105503_j90692529422554_1_alg».proof.Proof.Payload
import proofs.«105503_j90692529422554_1_alg».proof.Proof.Blocks
import proofs.«105503_j90692529422554_1_alg».proof.Proof.RefValue
import Idealize.ShloMosaic.Lib.ValueIdx
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)
open scoped BigOperators

/-!
# The kernel's result is the reference's result

The layer is a dense product with binarised weights, a bias and a residual, followed by layer normalisation of every
row of 1024 activations. The kernel walks a 16 × 4 grid: for each of sixteen blocks of 512 rows it visits the four
quarters of the 4096 input features in turn, keeping a running total of the partial products, and at the fourth
quarter normalises the finished rows and writes the block out. The reference takes each dot product as one sum over
all 4096 features.

What is proved here, in order: what the running total and the output hold after a point, as the body's pure terms;
that after a row block's fourth point the total is zero plus the four quarters' sums in point order, which on the
extended reals — addition being commutative and associative with `0` neutral — is the one sum over 4096 features;
that the normalised block is therefore the reference's result at the same rows; that the blocks the fourth points
write back tile the call's output array, which thus ends as the reference's result with its two leading axes merged;
and that the line after the call splits that axis again. No finiteness of the inputs is used anywhere.
-/

namespace Cert.KernelIdeal.Result

open Cert.KernelIdeal Cert.KernelIdeal.Gen Cert.KernelIdeal.Blocks Cert.KernelIdeal.Payload Cert.RowNorm

variable (m : (ℓ : Loc nD τ sig) → Buf (Elt Ideal) ℓ) (ρ : Dev nD → PrngReg)

/-! ## The running total and the output after a point, as the body's pure terms -/

/-- The running total (the carried 512 × 1024 block) after point `t`. -/
abbrev total (c : Dev nD) (t : Fin cfg0.N) : Vec Ideal S512x1024 .f32 := (outsAt0 m c t.val t.isLt).2

/-- The point before `t` (used only where `t` is not the grid's first point). -/
def before (t : Fin cfg0.N) : Fin cfg0.N := ⟨t.val - 1, Nat.lt_of_le_of_lt (Nat.sub_le _ _) t.isLt⟩

/-- At the first of a row block's four points the total is the product block added to the zero block. -/
theorem total_at_first (c : Dev nD) (t : Fin cfg0.N) (h0 : t.val % 4 = 0) :
    total m c t = k0_pay2 (hBlk m c t) (wBlk m c t) (k0_pay1 (F := Ideal)) := by
  have h1 : ¬t.val % 4 = 3 := by omega
  show (outsAt0 m c t.val t.isLt).2 = _
  rw [outsAt0_A m c t h0 h1]
  dsimp only
  exact Pieces.total_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- At each later point it is the product block added to the total the point before left. -/
theorem total_at_next (c : Dev nD) (t : Fin cfg0.N) (h0 : ¬t.val % 4 = 0) :
    total m c t = k0_pay2 (hBlk m c t) (wBlk m c t) (total m c (before t)) := by
  show (outsAt0 m c t.val t.isLt).2 = _
  by_cases h1 : t.val % 4 = 3
  · rw [outsAt0_C m c t h0 h1]
    dsimp only
    exact Pieces.total_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2
  · rw [outsAt0_B m c t h0 h1]
    dsimp only
    exact Pieces.total_next (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- At the last of the four points the output block is the normalisation of the fresh total. -/
theorem output_at_last (c : Dev nD) (t : Fin cfg0.N) (h1 : t.val % 4 = 3) :
    (outsAt0 m c t.val t.isLt).1
      = k0_pay3 (k0_pay2 (hBlk m c t) (wBlk m c t) (total m c (before t))) (bBlk m c t) (rBlk m c t) (gBlk m c t) (eBlk m c t) := by
  have h0 : ¬t.val % 4 = 0 := by omega
  rw [outsAt0_C m c t h0 h1]
  dsimp only
  exact Pieces.output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-! ## The four points of a row block -/

/-- Point `k` (of four) of row block `a` (of sixteen): the grid is 16 × 4, row-major. -/
def pt (a : Fin 16) (k : Fin 4) : Fin cfg0.N :=
  ⟨4 * a.val + k.val, by rw [show cfg0.N = 64 from N_0]; have := a.isLt; have := k.isLt; omega⟩

theorem before_pt1 (a : Fin 16) : before (pt a 1) = pt a 0 := Fin.ext (by show 4 * a.val + 1 - 1 = 4 * a.val + 0; omega)
theorem before_pt2 (a : Fin 16) : before (pt a 2) = pt a 1 := Fin.ext (by show 4 * a.val + 2 - 1 = 4 * a.val + 1; omega)
theorem before_pt3 (a : Fin 16) : before (pt a 3) = pt a 2 := Fin.ext (by show 4 * a.val + 3 - 1 = 4 * a.val + 2; omega)

/-- One point's product block at an entry: the row of the input block against the column of the weight block. -/
def dotBlk (c : Dev nD) (t : Fin cfg0.N) (p : Fin 512) (q : Fin 1024) : EReal :=
  ∑ j : Fin 1024, hBlk m c t (ix2 p j) * wBlk m c t (ix2 j q)

theorem total_apply_first (c : Dev nD) (t : Fin cfg0.N) (h0 : t.val % 4 = 0) (p : Fin 512) (q : Fin 1024) :
    total m c t (ix2 p q) = 0 + dotBlk m c t p q := by
  rw [total_at_first m c t h0, accumulate_apply, zero_block_apply]
  rfl

theorem total_apply_next (c : Dev nD) (t : Fin cfg0.N) (h0 : ¬t.val % 4 = 0) (p : Fin 512) (q : Fin 1024) :
    total m c t (ix2 p q) = total m c (before t) (ix2 p q) + dotBlk m c t p q := by
  rw [total_at_next m c t h0, accumulate_apply]
  rfl

/-- After the fourth point of row block `a` the total is zero plus the four product blocks, in point order. -/
theorem total_row_block (c : Dev nD) (a : Fin 16) (p : Fin 512) (q : Fin 1024) :
    total m c (pt a 3) (ix2 p q)
      = (((0 + dotBlk m c (pt a 0) p q) + dotBlk m c (pt a 1) p q) + dotBlk m c (pt a 2) p q) + dotBlk m c (pt a 3) p q := by
  rw [total_apply_next m c (pt a 3) (by show ¬(4 * a.val + 3) % 4 = 0; omega), before_pt3,
    total_apply_next m c (pt a 2) (by show ¬(4 * a.val + 2) % 4 = 0; omega), before_pt2,
    total_apply_next m c (pt a 1) (by show ¬(4 * a.val + 1) % 4 = 0; omega), before_pt1,
    total_apply_first m c (pt a 0) (by show (4 * a.val + 0) % 4 = 0; omega)]

/-! ## The argument arrays, by name -/

/-- The input activations `[16, 512, 4096]`, -/
abbrev argH (c : Dev nD) : Vec Ideal S16x512x4096 .f32 := m ((c : Thread nD τ).loc main_arg0)
/-- the residual `[16, 512, 1024]`, -/
abbrev argR (c : Dev nD) : Vec Ideal S16x512x1024 .f32 := m ((c : Thread nD τ).loc main_arg1)
/-- the weight `[1024, 4096]`, -/
abbrev argW (c : Dev nD) : Vec Ideal S1024x4096 .f32 := m ((c : Thread nD τ).loc main_arg2)
/-- the bias, the scale and the shift, each `[1024]`. -/
abbrev argB (c : Dev nD) : Vec Ideal S1024 .f32 := m ((c : Thread nD τ).loc main_arg3)
abbrev argG (c : Dev nD) : Vec Ideal S1024 .f32 := m ((c : Thread nD τ).loc main_arg4)
abbrev argE (c : Dev nD) : Vec Ideal S1024 .f32 := m ((c : Thread nD τ).loc main_arg5)

/-! ## The four product blocks are the four quarters of one dot product -/

/-- Row block `a` is the row block of each of its four points; -/
theorem rowBlock_of_pt (a : Fin 16) (k : Fin 4) (h : (pt a k).val / 4 < 16) : (⟨(pt a k).val / 4, h⟩ : Fin 16) = a :=
  Fin.ext (by show (4 * a.val + k.val) / 4 = a.val; have := k.isLt; omega)

/-- and point `k`'s block of input features is the `k`-th quarter of the 4096. -/
theorem feature_of_pt (a : Fin 16) (k : Fin 4) (j : Fin 1024) (h : 1024 * ((pt a k).val % 4) + j.val < 4096) :
    (⟨1024 * ((pt a k).val % 4) + j.val, h⟩ : Fin 4096) = blkIdx k j :=
  Fin.ext (by show 1024 * ((4 * a.val + k.val) % 4) + j.val = 1024 * k.val + j.val; have := k.isLt; omega)

/-- The products of row `(a, p)` of the input with row `q` of the binarised weight, one per input feature. -/
def prods (c : Dev nD) (a : Fin 16) (p : Fin 512) (q : Fin 1024) (i : Fin 4096) : EReal :=
  argH m c (ix3 a p i) * binW (argW m c) (ix2 q i)

theorem dotBlk_eq (c : Dev nD) (a : Fin 16) (k : Fin 4) (p : Fin 512) (q : Fin 1024) :
    dotBlk m c (pt a k) p q = ∑ j : Fin 1024, prods m c a p q (blkIdx k j) := by
  unfold dotBlk
  refine Finset.sum_congr rfl fun j _ => ?_
  rw [hBlk_apply, wBlk_apply, rowBlock_of_pt, feature_of_pt]
  rfl

/-- So the total after a row block's fourth point is the dot product over all 4096 input features: the four quarters
    added in order from zero are the whole sum. -/
theorem total_eq_dot (c : Dev nD) (a : Fin 16) (p : Fin 512) (q : Fin 1024) :
    total m c (pt a 3) (ix2 p q) = ∑ i : Fin 4096, prods m c a p q i := by
  rw [total_row_block, dotBlk_eq m c a 0, dotBlk_eq m c a 1, dotBlk_eq m c a 2, dotBlk_eq m c a 3]
  exact blocks_in_order (prods m c a p q)

/-! ## The output block is the reference's result -/

/-- Both programs binarise the weight by the same host operations. -/
theorem binW_eq (W : Vec Ideal S1024x4096 .f32) : binW W = Cert.ReferenceIdeal.Read.val_main_v7 (F := Ideal) W := rfl

/-- The reference's result, as a function of this program's argument arrays. -/
abbrev refOut (c : Dev nD) : Vec Ideal S16x512x1024 .f32 :=
  Cert.ReferenceIdeal.Read.val_main_v36 (F := Ideal) (argH m c) (argR m c) (argW m c) (argB m c) (argG m c) (argE m c)

/-- The activation the layer normalises: the dot product, plus the bias, plus the residual — the reference's. -/
theorem activation_eq (c : Dev nD) (a : Fin 16) (p : Fin 512) (o : Fin 1024) :
    (total m c (pt a 3) (ix2 p o) + bBlk m c (pt a 3) (ix2 0 o)) + rBlk m c (pt a 3) (ix2 p o)
      = Cert.ReferenceIdeal.Read.val_main_v12 (F := Ideal) (argH m c) (argR m c) (argW m c) (argB m c) (ix3 a p o) := by
  rw [total_eq_dot, bBlk_apply, rBlk_apply, rowBlock_of_pt, Cert.ReferenceIdeal.RefValue.activation_apply]
  refine congrArg₂ (· + ·) (congrArg₂ (· + ·) (Finset.sum_congr rfl fun k _ => ?_) rfl) rfl
  unfold prods
  rw [binW_eq]
  refine congrArg₂ (· * ·) (congrArg _ ?_) (congrArg _ ?_)
  · funext d; match d with | ⟨0, _⟩ => rfl | ⟨1, _⟩ => rfl | ⟨2, _⟩ => rfl
  · funext d; match d with | ⟨0, _⟩ => rfl | ⟨1, _⟩ => rfl

/-- Entry `(p, q)` of the block the last point of row block `a` stores is the reference's result at `(a, p, q)`. -/
theorem output_apply (c : Dev nD) (a : Fin 16) (p : Fin 512) (q : Fin 1024) :
    (outsAt0 m c (pt a 3).val (pt a 3).isLt).1 (ix2 p q) = refOut m c (ix3 a p q) := by
  have h3 : (pt a 3).val % 4 = 3 := by show (4 * a.val + 3) % 4 = 3; omega
  have h0 : ¬(pt a 3).val % 4 = 0 := by omega
  rw [output_at_last m c (pt a 3) h3, normalise_apply, ← total_at_next m c (pt a 3) h0]
  show _ = Cert.ReferenceIdeal.Read.val_main_v36 (F := Ideal) (argH m c) (argR m c) (argW m c) (argB m c) (argG m c) (argE m c) (ix3 a p q)
  rw [Cert.ReferenceIdeal.RefValue.result_apply]
  have hg : (fun o => gBlk m c (pt a 3) (ix2 0 o)) = fun o => argG m c (ix1 o) := funext fun o => gBlk_apply m c _ 0 o
  have he : (fun o => eBlk m c (pt a 3) (ix2 0 o)) = fun o => argE m c (ix1 o) := funext fun o => eBlk_apply m c _ 0 o
  have hx : (fun o => (total m c (pt a 3) (ix2 p o) + bBlk m c (pt a 3) (ix2 0 o)) + rBlk m c (pt a 3) (ix2 p o))
      = fun o => Cert.ReferenceIdeal.Read.val_main_v12 (F := Ideal) (argH m c) (argR m c) (argW m c) (argB m c) (ix3 a p o) :=
    funext fun o => activation_eq m c a p o
  rw [hg, he, hx]

/-! ## The call's output array -/

/-- The call's output array `[8192, 1024]`: the reference's result with its first two axes merged (row `512 a + p`
    is `(a, p)`). -/
abbrev out2 (c : Dev nD) : Vec Ideal S8192x1024 .f32 :=
  shapeCast S8192x1024 (refOut m c) shapeCasts_S16x512x1024_S8192x1024

/-- The merged array at row `512 a + p`, column `q`. -/
theorem out2_apply (c : Dev nD) (a : Fin 16) (p : Fin 512) (q : Fin 1024) (y : S8192x1024.Idx)
    (h0 : (y 0).val = 512 * a.val + p.val) (h1 : (y 1).val = q.val) : out2 m c y = refOut m c (ix3 a p q) := by
  refine shapeCast_apply (refOut m c) shapeCasts_S16x512x1024_S8192x1024 y (ix3 a p q) ?_
  rw [Shape.rowMajor_val_three, Shape.rowMajor_val_two]
  show (a.val * 512 + p.val) * 1024 + q.val = (y 0).val * 1024 + (y 1).val
  rw [h0, h1]
  omega

/-- The output window's block index at point `t` is `(t / 4, 0)` — decided over the grid. -/
theorem out_index : ∀ t : Fin cfg0.N, win0_6.index t (0 : Fin 2) = t.val / 4 ∧ win0_6.index t (1 : Fin 2) = 0 :=
  (by decide +kernel : ∀ t : Fin grid0.N, _)

theorem pt_val (a : Fin 16) (k : Fin 4) : (pt a k).val = 4 * a.val + k.val := rfl

/-- What a point that writes back writes: its block of the merged array. Such a point is the fourth of a row block. -/
theorem flushed_eq (c : Dev nD) (t : Fin cfg0.N) (hf : (cfg0.win 6).flush t = true) :
    (dats m 0 c).flushed 6 t = ((cfg0.win 6).blk t).view.read (Elt Ideal) (out2 m c) := by
  have h3 : t.val % 4 = 3 := (flush0_6 t).mp hf
  have hN : t.val < 64 := lt_of_lt_of_eq t.isLt (show cfg0.N = 64 from N_0)
  obtain ⟨a, rfl⟩ : ∃ a : Fin 16, t = pt a 3 :=
    ⟨⟨t.val / 4, by omega⟩, Fin.ext (by show t.val = 4 * (t.val / 4) + 3; omega)⟩
  show (cfg0.win 6).cut (grid0.coords (pt a 3)) ((dats m 0 c).after 6 (pt a 3)) = _
  rw [after0_6]
  funext y
  rw [View.read_apply]
  obtain ⟨e0, e1⟩ := out_index (pt a 3)
  obtain ⟨p, q, rfl⟩ : ∃ (p : Fin 512) (q : Fin 1024), y = ix2 p q := ⟨y 0, y 1, eq_ix2 y⟩
  show (outsAt0 m c (pt a 3).val (pt a 3).isLt).1 (ix2 p q) = out2 m c (((cfg0.win 6).blk (pt a 3)).view.emb (ix2 p q))
  rw [output_apply]
  refine (out2_apply m c a p q _ ?_ ?_).symm
  · show win0_6.index (pt a 3) (0 : Fin 2) * 512 + 1 * p.val = 512 * a.val + p.val
    rw [e0, pt_val]; show (4 * a.val + 3) / 4 * 512 + 1 * p.val = _; omega
  · show win0_6.index (pt a 3) (1 : Fin 2) * 1024 + 1 * q.val = q.val
    rw [e1]; omega

/-- An index of the array is in point `t`'s block iff each coordinate is in the block's range on its axis. -/
theorem mem_out_blk (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v14).slice (win0_6.rect t)).set ↔ _
  rw [View.set_slice_whole, Rect.mem_set_unit]
  exact Iff.rfl

/-- Every row of the array lies in the block some row block's fourth point writes back. -/
theorem covered (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  let a : Fin 16 := ⟨(i 0).val / 512, by omega⟩
  have hv : (pt a 3).val = 4 * ((i 0).val / 512) + 3 := rfl
  refine ⟨pt a 3, (flush0_6 _).mpr (by rw [hv]; omega), ?_⟩
  rw [mem_out_blk]
  obtain ⟨e0, e1⟩ := out_index (pt a 3)
  intro d
  match d with
  | ⟨0, _⟩ =>
    show win0_6.index (pt a 3) (0 : Fin 2) * 512 ≤ (i 0).val ∧ (i 0).val < win0_6.index (pt a 3) (0 : Fin 2) * 512 + 512
    rw [e0, hv]; omega
  | ⟨1, _⟩ =>
    show win0_6.index (pt a 3) (1 : Fin 2) * 1024 ≤ (i 1).val ∧ (i 1).val < win0_6.index (pt a 3) (1 : Fin 2) * 1024 + 1024
    rw [e1]; omega

/-- So after the run the call's output array is the merged reference result. -/
theorem final_out (c : Dev nD) : (dats m 0 c).arrAt 6 cfg0.N = out2 m c :=
  (dats m 0 c).arrAt_eq_of_cover 6 (out2 m c) (fun t hf => flushed_eq m c t hf) covered

/-! ## The line after the call, and the run -/

/-- The line after the call splits the merged axis again: the program's result is the reference's. -/
theorem tail_eq (c : Dev nD) :
    Pipeline.afterTail₀ cfgs (dats m) 0 (V0 m) [hostOps1] c main_v15 = refOut m c := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.tc.devRef main_v14)
      = out2 m c := (Pipeline.withArrays_arr spec0 winFacts0.arr_inj c _ _ 6).trans (final_out m c)
  funext i
  show shapeCast S16x512x1024 (Pipeline.withArrays (cfgs 0).spec c (V0 m c) (fun w => (dats m 0 c).arrAt w (cfgs 0).N)
      (Proc.tc.devRef main_v14)) shapeCasts_S8192x1024_S16x512x1024 i = refOut m c i
  rw [hw]
  exact congrFun (shapeCast_shapeCast (refOut m c) shapeCasts_S16x512x1024_S8192x1024 shapeCasts_S8192x1024_S16x512x1024) i

/-- THE RUN, READ: every weakly fair execution of the program ends with its result at the reference's result of the
    argument arrays, and the arguments unchanged. -/
theorem run : θ_run defs (onTc (τ := τ) (main (F := Ideal))) ⟨m, fun _ => 0, ρ⟩ fun r => ∀ c : Dev nD,
      r.2.mem ((c.tc : Thread nD τ).loc main_v15) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  A dense layer with binarised weights followed by a residual layer normalisation, as a pipelined kernel
  (`Kernel`, its idealization `KernelIdeal`) against the plain array program (`ReferenceIdeal`), over the extended
  reals.

  Both programs binarise the weight `W : [1024, 4096]` the same way, `sign W · mean |W|` along each row, and compute
  `x = h · W_qᵀ + b + r` followed by `γ · (x − μ) · rsqrt (σ² + ε) + β` on every row of 1024 activations, `μ` and `σ²`
  the row's mean and mean squared deviation. They differ in one thing: the reference contracts the 4096 input
  features in one sum, the kernel in four consecutive quarters added to a running total that starts at zero. On the
  extended reals addition is commutative and associative with `0` neutral, so the two sums are equal for all values
  of the inputs, the infinities included (Proof/RowNorm.lean, `blocks_in_order`); the precondition is not used.

  The frames of `Kernel` and `KernelIdeal` are the generated ones. `KernelIdeal`'s run is read as values in
  Proof/Result.lean (over Proof/Pieces.lean, Proof/Payload.lean and Proof/Blocks.lean): its result array ends at the
  reference's result of the argument arrays. The reference's run is the generated one, its result read stage by
  stage in Proof/RefValue.lean; its frame is that run with the result dropped. The ideal pass rewrote nothing, so
  `preserves` is `True`.
-/
import proofs.«105503_j90692529422554_1_alg».proof.Defs
import proofs.«105503_j90692529422554_1_alg».proof.Proof.Gen.Kernel
import proofs.«105503_j90692529422554_1_alg».proof.Proof.Gen.Kernel.Skeleton
import proofs.«105503_j90692529422554_1_alg».proof.Proof.Gen.Kernel.Launch
import proofs.«105503_j90692529422554_1_alg».proof.Proof.Gen.Kernel.Points
import proofs.«105503_j90692529422554_1_alg».proof.Proof.Gen.Kernel.Frame
import proofs.«105503_j90692529422554_1_alg».proof.Proof.Gen.KernelIdeal
import proofs.«105503_j90692529422554_1_alg».proof.Proof.Gen.KernelIdeal.Skeleton
import proofs.«105503_j90692529422554_1_alg».proof.Proof.Gen.KernelIdeal.Launch
import proofs.«105503_j90692529422554_1_alg».proof.Proof.Gen.KernelIdeal.Points
import proofs.«105503_j90692529422554_1_alg».proof.Proof.Gen.KernelIdeal.Frame
import proofs.«105503_j90692529422554_1_alg».proof.Proof.Gen.ReferenceIdeal
import proofs.«105503_j90692529422554_1_alg».proof.Proof.Gen.ReferenceIdeal.Run
import proofs.«105503_j90692529422554_1_alg».proof.Proof.Gen.ReferenceIdeal.Read
import proofs.«105503_j90692529422554_1_alg».proof.Proof.Gen.Pre_finite_inputs
import proofs.«105503_j90692529422554_1_alg».proof.Proof.Result
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the same result: the kernel's run ends at
    the reference's result of ITS arguments, the reference's at that of its own, and the arguments agree. -/
theorem algebraic : Cert.algebraic_KernelIdeal_ReferenceIdeal := by
  intro m ρ m' ρ' _ hagree
  refine ⟨fun c => Cert.KernelIdeal.Result.refOut m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
